-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S86x128x32x128 : Shape := ⟨4, ![86, 128, 32, 128]⟩
abbrev S86x32 : Shape := ⟨2, ![86, 32]⟩
abbrev S86x1x32x1 : Shape := ⟨4, ![86, 1, 32, 1]⟩
abbrev S11264x4096 : Shape := ⟨2, ![11264, 4096]⟩
abbrev S11264 : Shape := ⟨1, ![11264]⟩
abbrev S1x11264 : Shape := ⟨2, ![1, 11264]⟩
abbrev S8192x11264 : Shape := ⟨2, ![8192, 11264]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩
abbrev S8192x11008 : Shape := ⟨2, ![8192, 11008]⟩
abbrev S4x2048x11008 : Shape := ⟨3, ![4, 2048, 11008]⟩

abbrev nBuf : Space → Nat
  | .hbm => 74
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .i1⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S_, .f32⟩
  | .hbm, ⟨16, _⟩ => ⟨S_, .f32⟩
  | .hbm, ⟨17, _⟩ => ⟨S8192x32x1, .f32⟩
  | .hbm, ⟨18, _⟩ => ⟨S8192x32x1, .f32⟩
  | .hbm, ⟨19, _⟩ => ⟨S8192x32x128, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32x128, .f32⟩
  | .hbm, ⟨29, _⟩ => ⟨S8192x32x128, .f32⟩
  | .hbm, ⟨30, _⟩ => ⟨S8192x32x128, .f32⟩
  | .hbm, ⟨31, _⟩ => ⟨S8192x32x128, .f32⟩
  | .hbm, ⟨32, _⟩ => ⟨S8192x4096, .f32⟩
  | .hbm, ⟨33, _⟩ => ⟨S86x128x32x128, .f32⟩
  | .hbm, ⟨34, _⟩ => ⟨S86x128x32x128, .f32⟩
  | .hbm, ⟨35, _⟩ => ⟨S_, .f32⟩
  | .hbm, ⟨36, _⟩ => ⟨S86x32, .f32⟩
  | .hbm, ⟨37, _⟩ => ⟨S86x1x32x1, .f32⟩
  | .hbm, ⟨38, _⟩ => ⟨S_, .f32⟩
  | .hbm, ⟨39, _⟩ => ⟨S86x1x32x1, .f32⟩
  | .hbm, ⟨40, _⟩ => ⟨S86x1x32x1, .i1⟩
  | .hbm, ⟨41, _⟩ => ⟨S_, .f32⟩
  | .hbm, ⟨42, _⟩ => ⟨S86x1x32x1, .f32⟩
  | .hbm, ⟨43, _⟩ => ⟨S86x1x32x1, .f32⟩
  | .hbm, ⟨44, _⟩ => ⟨S_, .f32⟩
  | .hbm, ⟨45, _⟩ => ⟨S_, .f32⟩
  | .hbm, ⟨46, _⟩ => ⟨S86x1x32x1, .f32⟩
  | .hbm, ⟨47, _⟩ => ⟨S86x1x32x1, .f32⟩
  | .hbm, ⟨48, _⟩ => ⟨S86x128x32x128, .f32⟩
  | .hbm, ⟨49, _⟩ => ⟨S86x128x32x128, .f32⟩
  | .hbm, ⟨50, _⟩ => ⟨S86x128x32x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S86x128x32x128, .f32⟩
  | .hbm, ⟨55, _⟩ => ⟨S86x128x32x128, .f32⟩
  | .hbm, ⟨56, _⟩ => ⟨S_, .f32⟩
  | .hbm, ⟨57, _⟩ => ⟨S86x128x32x128, .f32⟩
  | .hbm, ⟨58, _⟩ => ⟨S86x128x32x128, .f32⟩
  | .hbm, ⟨59, _⟩ => ⟨S86x128x32x128, .f32⟩
  | .hbm, ⟨60, _⟩ => ⟨S86x128x32x128, .f32⟩
  | .hbm, ⟨61, _⟩ => ⟨S11008x4096, .f32⟩
  | .hbm, ⟨62, _⟩ => ⟨S8192x4096, .bf16⟩
  | .hbm, ⟨63, _⟩ => ⟨S11008x4096, .bf16⟩
  | .hbm, ⟨64, _⟩ => ⟨S_, .i32⟩
  | .hbm, ⟨65, _⟩ => ⟨S_, .bf16⟩
  | .hbm, ⟨66, _⟩ => ⟨S11264x4096, .bf16⟩
  | .hbm, ⟨67, _⟩ => ⟨S_, .i32⟩
  | .hbm, ⟨68, _⟩ => ⟨S_, .f32⟩
  | .hbm, ⟨69, _⟩ => ⟨S11264, .f32⟩
  | .hbm, ⟨70, _⟩ => ⟨S1x11264, .f32⟩
  | .hbm, ⟨71, _⟩ => ⟨S8192x11264, .f32⟩
  | .hbm, ⟨72, _⟩ => ⟨S8192x11008, .f32⟩
  | .hbm, ⟨73, _⟩ => ⟨S4x2048x11008, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c : Ref sig .tc := ⟨.hbm, 64, rfl⟩
abbrev main_call6_v0 : Ref sig .tc := ⟨.hbm, 65, rfl⟩
abbrev main_v35 : Ref sig .tc := ⟨.hbm, 66, rfl⟩
abbrev main_c_11 : Ref sig .tc := ⟨.hbm, 67, rfl⟩
abbrev main_call7_v0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S11008x4096_S86x128x32x128 : S11008x4096.ShapeCasts S86x128x32x128
  reducesTo_S86x128x32x128_S86x32_d1_3 : S86x128x32x128.ReducesTo [1, 3] S86x32
  bcast_S86x32_S86x1x32x1_0_2 : S86x32.BroadcastsInDim S86x1x32x1 (![0, 2] : Fin 2 → Fin S86x1x32x1.rank)
  bcast_S_S86x1x32x1 : S_.BroadcastsInDim S86x1x32x1 (![] : Fin 0 → Fin S86x1x32x1.rank)
  bcast_S86x1x32x1_S86x128x32x128_0_1_2_3 : S86x1x32x1.BroadcastsInDim S86x128x32x128 (![0, 1, 2, 3] : Fin 4 → Fin S86x128x32x128.rank)
  bcast_S_S86x128x32x128 : S_.BroadcastsInDim S86x128x32x128 (![] : Fin 0 → Fin S86x128x32x128.rank)
  shapeCasts_S86x128x32x128_S11008x4096 : S86x128x32x128.ShapeCasts S11008x4096
  bitsLt_bf16_f32 : FTy.bits .bf16 < FTy.bits .f32
  pads_S11008x4096_S11264x4096_02560_000 : S11008x4096.Pads (![0, 0] : Fin 2 → Nat) ![256, 0] ![0, 0] S11264x4096
  pads_S11008_S11264_02560 : S11008.Pads (![0] : Fin 1 → Nat) ![256] ![0] S11264
  shapeCasts_S11264_S1x11264 : S11264.ShapeCasts S1x11264
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  slices_S8192x11264_S8192x11008_0_0 : S8192x11264.Slices ![0, 0] S8192x11008
  shapeCasts_S8192x11008_S4x2048x11008 : S8192x11008.ShapeCasts S4x2048x11008
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S11264x4096.size a
  hwx0_1 : ∀ i : grid0.Coords, EltTy.bits .bf16 = 32 ∨ (Rect.block (s := S11264x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x11264.size a
  hwx0_3 : ∀ i : grid0.Coords, EltTy.bits .f32 = 32 ∨ (Rect.block (s := S8192x11264) S512x1024.size (cc0_transform_3 i) (hinb0_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v33) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S86x128x32x128 : Shape := ⟨4, ![86, 128, 32, 128]⟩
abbrev S86x32 : Shape := ⟨2, ![86, 32]⟩
abbrev S86x1x32x1 : Shape := ⟨4, ![86, 1, 32, 1]⟩
abbrev S8192x11008 : Shape := ⟨2, ![8192, 11008]⟩
abbrev S1x11008 : Shape := ⟨2, ![1, 11008]⟩
abbrev S4x2048x11008 : Shape := ⟨3, ![4, 2048, 11008]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .i1⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S_, .f32⟩
  | .hbm, ⟨16, _⟩ => ⟨S_, .f32⟩
  | .hbm, ⟨17, _⟩ => ⟨S8192x32x1, .f32⟩
  | .hbm, ⟨18, _⟩ => ⟨S8192x32x1, .f32⟩
  | .hbm, ⟨19, _⟩ => ⟨S8192x32x128, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32x128, .f32⟩
  | .hbm, ⟨29, _⟩ => ⟨S8192x32x128, .f32⟩
  | .hbm, ⟨30, _⟩ => ⟨S8192x32x128, .f32⟩
  | .hbm, ⟨31, _⟩ => ⟨S8192x32x128, .f32⟩
  | .hbm, ⟨32, _⟩ => ⟨S8192x4096, .f32⟩
  | .hbm, ⟨33, _⟩ => ⟨S86x128x32x128, .f32⟩
  | .hbm, ⟨34, _⟩ => ⟨S86x128x32x128, .f32⟩
  | .hbm, ⟨35, _⟩ => ⟨S_, .f32⟩
  | .hbm, ⟨36, _⟩ => ⟨S86x32, .f32⟩
  | .hbm, ⟨37, _⟩ => ⟨S86x1x32x1, .f32⟩
  | .hbm, ⟨38, _⟩ => ⟨S_, .f32⟩
  | .hbm, ⟨39, _⟩ => ⟨S86x1x32x1, .f32⟩
  | .hbm, ⟨40, _⟩ => ⟨S86x1x32x1, .i1⟩
  | .hbm, ⟨41, _⟩ => ⟨S_, .f32⟩
  | .hbm, ⟨42, _⟩ => ⟨S86x1x32x1, .f32⟩
  | .hbm, ⟨43, _⟩ => ⟨S86x1x32x1, .f32⟩
  | .hbm, ⟨44, _⟩ => ⟨S_, .f32⟩
  | .hbm, ⟨45, _⟩ => ⟨S_, .f32⟩
  | .hbm, ⟨46, _⟩ => ⟨S86x1x32x1, .f32⟩
  | .hbm, ⟨47, _⟩ => ⟨S86x1x32x1, .f32⟩
  | .hbm, ⟨48, _⟩ => ⟨S86x128x32x128, .f32⟩
  | .hbm, ⟨49, _⟩ => ⟨S86x128x32x128, .f32⟩
  | .hbm, ⟨50, _⟩ => ⟨S86x128x32x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S86x128x32x128, .f32⟩
  | .hbm, ⟨55, _⟩ => ⟨S86x128x32x128, .f32⟩
  | .hbm, ⟨56, _⟩ => ⟨S_, .f32⟩
  | .hbm, ⟨57, _⟩ => ⟨S86x128x32x128, .f32⟩
  | .hbm, ⟨58, _⟩ => ⟨S86x128x32x128, .f32⟩
  | .hbm, ⟨59, _⟩ => ⟨S86x128x32x128, .f32⟩
  | .hbm, ⟨60, _⟩ => ⟨S86x128x32x128, .f32⟩
  | .hbm, ⟨61, _⟩ => ⟨S11008x4096, .f32⟩
  | .hbm, ⟨62, _⟩ => ⟨S8192x11008, .f32⟩
  | .hbm, ⟨63, _⟩ => ⟨S1x11008, .f32⟩
  | .hbm, ⟨64, _⟩ => ⟨S8192x11008, .f32⟩
  | .hbm, ⟨65, _⟩ => ⟨S8192x11008, .f32⟩
  | .hbm, ⟨66, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S11008x4096_S86x128x32x128 : S11008x4096.ShapeCasts S86x128x32x128
  reducesTo_S86x128x32x128_S86x32_d1_3 : S86x128x32x128.ReducesTo [1, 3] S86x32
  bcast_S86x32_S86x1x32x1_0_2 : S86x32.BroadcastsInDim S86x1x32x1 (![0, 2] : Fin 2 → Fin S86x1x32x1.rank)
  bcast_S_S86x1x32x1 : S_.BroadcastsInDim S86x1x32x1 (![] : Fin 0 → Fin S86x1x32x1.rank)
  bcast_S86x1x32x1_S86x128x32x128_0_1_2_3 : S86x1x32x1.BroadcastsInDim S86x128x32x128 (![0, 1, 2, 3] : Fin 4 → Fin S86x128x32x128.rank)
  bcast_S_S86x128x32x128 : S_.BroadcastsInDim S86x128x32x128 (![] : Fin 0 → Fin S86x128x32x128.rank)
  shapeCasts_S86x128x32x128_S11008x4096 : S86x128x32x128.ShapeCasts S11008x4096
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  shapeCasts_S8192x11008_S4x2048x11008 : S8192x11008.ShapeCasts S4x2048x11008
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Dense.lean ====
/-
  A dense layer over tokens, read entry by entry on the extended reals.

  The activations are an [8192, 4096] array  A  (4 · 2048 token rows), the weights an [11008, 4096] array  B  (one row per
  output feature), the bias a vector  b  of 11008 numbers. The layer's result, laid out as [4, 2048, 11008], holds at
  (s, t, o) the number   Σ_k A(s·2048 + t, k) · B(o, k)  +  b(o) .

  One program computes this product for 11264 feature rows: the weights and the bias are extended by 256 rows of zeros,
  the product is taken over the [8192, 11264] array, and the 256 extra columns are cut off again. Entry (r, q) of that wider
  product depends on row q of the extended weights and on entry q of the extended bias only, so on the first 11008
  columns it is the layer's result: the added rows are never read there (`dense_of_padded`). That an array extended at
  its high end keeps its own entries is `pad_rows_inside` and `pad_vec_inside`.
-/
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.Dense

open Idealize.ShloMosaic Idealize.ShloMosaic.ValueIdx

/-- The token row  s·2048 + t  of a result index (s, t, o). -/
def tok (i : (⟨3, ![4, 2048, 11008]⟩ : Shape).Idx) : Fin 8192 :=
  ⟨(i 0).val * 2048 + (i 1).val, by
    have h0 : (i 0).val < 4 := (i 0).isLt
    have h1 : (i 1).val < 2048 := (i 1).isLt
    omega⟩

/-- The output feature  o  of a result index (s, t, o). -/
def feat (i : (⟨3, ![4, 2048, 11008]⟩ : Shape).Idx) : Fin 11008 := ⟨(i 2).val, (i 2).isLt⟩

/-- The same feature as a column of the array widened to 11264 columns. -/
def featWide (i : (⟨3, ![4, 2048, 11008]⟩ : Shape).Idx) : Fin 11264 :=
  ⟨(i 2).val, by have h2 : (i 2).val < 11008 := (i 2).isLt; omega⟩

/-- The layer:  Σ_k A(row, k) · B(o, k) + b(o)  at every (s, t, o). -/
def dense (A : (⟨2, ![8192, 4096]⟩ : Shape).Idx → EReal) (B : (⟨2, ![11008, 4096]⟩ : Shape).Idx → EReal)
    (b : (⟨1, ![11008]⟩ : Shape).Idx → EReal) : (⟨3, ![4, 2048, 11008]⟩ : Shape).Idx → EReal :=
  fun i => (∑ k : Fin 4096, A (ix2 (tok i) k) * B (ix2 (feat i) k)) + b (ix1 (feat i))

/-- The product over the widened operands: at (r, q),  Σ_k A(r, k) · B'(q, k) + b'(0, q) , the bias a single row. -/
def padded (A : (⟨2, ![8192, 4096]⟩ : Shape).Idx → EReal) (B' : (⟨2, ![11264, 4096]⟩ : Shape).Idx → EReal)
    (b' : (⟨2, ![1, 11264]⟩ : Shape).Idx → EReal) : (⟨2, ![8192, 11264]⟩ : Shape).Idx → EReal :=
  fun j => (∑ k : Fin 4096, A (ix2 (⟨(j 0).val, idx2_lt0 j⟩ : Fin 8192) k) * B' (ix2 (⟨(j 1).val, idx2_lt1 j⟩ : Fin 11264) k))
    + b' (ix2 (0 : Fin 1) (⟨(j 1).val, idx2_lt1 j⟩ : Fin 11264))

/-- On the first 11008 columns the widened product is the layer: column  o  reads row  o  of the widened weights and entry
    o  of the widened bias, which are the weights' and the bias's own. -/
theorem dense_of_padded (A : (⟨2, ![8192, 4096]⟩ : Shape).Idx → EReal) (B : (⟨2, ![11008, 4096]⟩ : Shape).Idx → EReal)
    (b : (⟨1, ![11008]⟩ : Shape).Idx → EReal) (B' : (⟨2, ![11264, 4096]⟩ : Shape).Idx → EReal)
    (b' : (⟨2, ![1, 11264]⟩ : Shape).Idx → EReal)
    (hB : ∀ (o : Fin 11008) (k : Fin 4096), B' (ix2 (⟨o.val, by have := o.isLt; omega⟩ : Fin 11264) k) = B (ix2 o k))
    (hb : ∀ o : Fin 11008, b' (ix2 (0 : Fin 1) (⟨o.val, by have := o.isLt; omega⟩ : Fin 11264)) = b (ix1 o))
    (i : (⟨3, ![4, 2048, 11008]⟩ : Shape).Idx) :
    padded A B' b' (ix2 (tok i) (featWide i)) = dense A B b i := by
  unfold padded dense
  have e := hb (feat i)
  have f : ∀ k : Fin 4096, B' (ix2 (⟨(feat i).val, by have := (feat i).isLt; omega⟩ : Fin 11264) k) = B (ix2 (feat i) k) :=
    fun k => hB (feat i) k
  exact congrArg₂ (· + ·) (Finset.sum_congr rfl fun k _ => congrArg₂ (· * ·) rfl (f k)) e

/-- A matrix of 11008 rows extended below by 256 rows keeps its own rows: at (o, k) with  o < 11008  it is the matrix
    at (o, k). -/
theorem pad_rows_inside {α : Type} (x : (⟨2, ![11008, 4096]⟩ : Shape).Idx → α) {u : Shape} (v : u.Idx → α)
    (h : (⟨2, ![11008, 4096]⟩ : Shape).Pads ![0, 0] ![256, 0] ![0, 0] ⟨2, ![11264, 4096]⟩) (hu : 0 < u.numel)
    (o : Fin 11008) (k : Fin 4096) :
    pad ⟨2, ![11264, 4096]⟩ ![0, 0] ![256, 0] ![0, 0] x v h hu
        (ix2 (⟨o.val, by have := o.isLt; omega⟩ : Fin 11264) k) = x (ix2 o k) :=
  pad_apply_of_inside ![0, 0] ![256, 0] ![0, 0] x v h hu _ (ix2 o k) fun a =>
    match a with
    | ⟨0, _⟩ => by show o.val = 0 + o.val * (0 + 1); omega
    | ⟨1, _⟩ => by show k.val = 0 + k.val * (0 + 1); omega

/-- A vector of 11008 entries extended by 256 entries keeps its own entries. -/
theorem pad_vec_inside {α : Type} (x : (⟨1, ![11008]⟩ : Shape).Idx → α) {u : Shape} (v : u.Idx → α)
    (h : (⟨1, ![11008]⟩ : Shape).Pads ![0] ![256] ![0] ⟨1, ![11264]⟩) (hu : 0 < u.numel) (o : Fin 11008) :
    pad ⟨1, ![11264]⟩ ![0] ![256] ![0] x v h hu (ix1 (⟨o.val, by have := o.isLt; omega⟩ : Fin 11264)) = x (ix1 o) :=
  pad_apply_of_inside ![0] ![256] ![0] x v h hu _ (ix1 o) fun a =>
    match a with
    | ⟨0, _⟩ => by show o.val = 0 + o.val * (0 + 1); omega

end Cert.Dense

end
-- ==== Proof.RefSide.lean ====
/-
  The reference program is the dense layer of its two quantized operands.

  After quantizing and de-quantizing the activations (an [8192, 4096] array) and the weights (an [11008, 4096] array), the
  reference contracts the two along their second axes, adds the bias to every row and lays the [8192, 11008] result out as
  [4, 2048, 11008]. Read at (s, t, o): the last reshape reads row  s·2048 + t  and column  o , the sum is that row of the
  activations against row  o  of the weights, and the bias row repeated over the rows gives  b(o) .
-/
import proofs.«143981_j62285615726858_1_alg».proof.Proof.Gen.ReferenceIdeal.Read
import proofs.«143981_j62285615726858_1_alg».proof.Proof.Dense

noncomputable section

open scoped BigOperators

namespace Cert.RefDense

open Cert.ReferenceIdeal Cert.ReferenceIdeal.Read Cert.Dense Idealize.ShloMosaic Idealize.ShloMosaic.ValueIdx

/-- Flattening (s, t, o) over 11008 columns and dividing by 11008 gives back the row  s·2048 + t . -/
theorem row_of_flat (i : S4x2048x11008.Idx) :
    (((i 0).val * 2048 + (i 1).val) * 11008 + (i 2).val) / 11008 = (i 0).val * 2048 + (i 1).val := by
  have h2 : (i 2).val < 11008 := (i 2).isLt
  omega

/-- And the remainder is the column  o . -/
theorem col_of_flat (i : S4x2048x11008.Idx) :
    (((i 0).val * 2048 + (i 1).val) * 11008 + (i 2).val) % 11008 = (i 2).val := by
  have h2 : (i 2).val < 11008 := (i 2).isLt
  omega

/-- The left operand of the product is read at (row, k). -/
theorem left_index (i : S4x2048x11008.Idx) (k : Fin 4096) :
    lidx_main_v33 (idx_main_v37 i) k = ix2 (tok i) k :=
  funext fun a => Fin.ext (by
    match a with
    | ⟨0, _⟩ => exact row_of_flat i
    | ⟨1, _⟩ => rfl)

/-- The right operand of the product is read at (o, k). -/
theorem right_index (i : S4x2048x11008.Idx) (k : Fin 4096) :
    ridx_main_v33 (idx_main_v37 i) k = ix2 (feat i) k :=
  funext fun a => Fin.ext (by
    match a with
    | ⟨0, _⟩ => exact col_of_flat i
    | ⟨1, _⟩ => rfl)

/-- The bias is read at  o . -/
theorem bias_index (i : S4x2048x11008.Idx) :
    idx_main_v34 (idx_main_v35 (idx_main_v37 i)) = ix1 (feat i) :=
  funext fun a => Fin.ext (by
    match a with
    | ⟨0, _⟩ => exact col_of_flat i)

/-- The reference's result is the dense layer of its quantized activations, its quantized weights and the bias. -/
theorem ref_dense (x : (⟨S4x2048x4096, .f32⟩ : BufTy).Contents (Elt Ideal))
    (w : (⟨S11008x4096, .f32⟩ : BufTy).Contents (Elt Ideal)) (b : (⟨S11008, .f32⟩ : BufTy).Contents (Elt Ideal)) :
    val_main_v37 (F := Ideal) x w b
      = dense (val_main_v16 (F := Ideal) x) (val_main_v32 (F := Ideal) w) b := by
  funext i
  rw [val_main_v37_apply, val_main_v36_apply, val_main_v33_apply, val_main_v35_apply, val_main_v34_apply]
  unfold dense
  simp only [left_index, right_index, bias_index, Ideal.addf_def]

end Cert.RefDense

end
-- ==== Proof.LibRowsProduct.lean ====
/-
  The product of an [R, K] array with the transpose of a [C, K] array — both operands contracted along their axis 1,
  no batch axes — read at (r, c) on the extended reals: the sum over k of  lhs(r, k) · rhs(c, k) . With the two operands
  one array this is the Gram matrix of its rows. It holds for the matrix unit's product into a zero accumulator and for
  the host's general product alike: both are the same sum over the one-axis contraction index, re-indexed here by its
  one coordinate.
-/
import Idealize.ShloMosaic.PureOps.Ideal.Laws
import Idealize.ShloMosaic.Lib.ValueIdx

noncomputable section

open scoped BigOperators

namespace Cert.LibRowsProduct

open Idealize.ShloMosaic Idealize.ShloMosaic.ValueIdx

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- The left operand's row is the result's row. -/
theorem lhsIdx_row {R K C : ℕ} (d : DotDims ⟨2, ![R, K]⟩ ⟨2, ![C, K]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- The right operand's row is the result's column. -/
theorem rhsIdx_row {R K C : ℕ} (d : DotDims ⟨2, ![R, K]⟩ ⟨2, ![C, K]⟩ ⟨2, ![R, C]⟩)
    (h3 : d.lhsNonContracting = [0]) (h4 : d.rhsNonContracting = [0]) (h5 : d.lhsBatch = []) (h6 : d.rhsBatch = [])
    (j : (⟨2, ![R, C]⟩ : Shape).Idx) (k : d.contr.Idx) : (d.rhsIdx j k 0).val = (j 1).val := by
  have hb : (0 : Fin 2) ∉ d.rhsBatch := by rw [h6]; exact List.not_mem_nil
  have hn : (0 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over the one-axis contraction index, as the sum over k of  lhs(r, k) · rhs(c, k) . -/
theorem contr_sum {R K C : ℕ} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (lhs : (⟨2, ![R, K]⟩ : Shape).Idx → EReal) (rhs : (⟨2, ![C, K]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 c k) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k), the right one at (c, k)
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  have er : d.rhsIdx (ix2 r c) ((contrEquiv1 d K hr hs).symm k) = ix2 c k := by
    funext a
    match a with
    | ⟨0, _⟩ => exact Fin.ext (rhsIdx_row d h3 h4 h5 h6 (ix2 r c) _)
    | ⟨1, _⟩ => exact Fin.ext ((d.rhsIdx_val_of_single h2 (ix2 r c) _).trans hk)
  rw [el, er]

/-- The matrix unit's product into a zero accumulator, at (r, c). -/
theorem matmul_zero_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    matmul d prec lhs rhs (constant ⟨2, ![R, C]⟩ .f32 0x00000000#32) (ix2 r c)
      = ∑ k : Fin K, lhs (ix2 r k) * rhs (ix2 c k) := by
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    Host.dotGeneral d prec lhs rhs (ix2 r c) = ∑ k : Fin K, lhs (ix2 r k) * rhs (ix2 c k) := by
  simp only [Host.dotGeneral]
  rw [Ideal.dotGeneral_apply]
  exact contr_sum d h1 h2 h3 h4 h5 h6 lhs rhs r c

end Cert.LibRowsProduct

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.KernelBlock.lean ====
/-
  What the matrix-product region leaves in its result array.

  The region runs over a 16 × 11 grid. At point (a, b) it reads rows 512·a … 512·a + 511 of the activations (all 4096
  columns), rows 1024·b … 1024·b + 1023 of the widened weights, and entries 1024·b … 1024·b + 1023 of the widened bias
  row, and writes the 512 × 1024 tile of the result at block (a, b). Entry (p, q) of that tile is the product of row p
  of the activations' block with row q of the weights' block, summed over all 4096 columns in one step, plus entry q
  of the bias block (`tile_entry`). Reading each block where it sits in its array, the tile is the block (a, b) of ONE
  function of the three arrays, the widened product `Cert.Dense.padded`: this is proved for ANY three arrays
  (`tile_of_arrays`, `block_of_arrays`) and then read at the arrays the region finds (`written_back`). The 176 tiles
  cover the [8192, 11264] array (`tiles_cover`), so after the region the array holds that function (`region_result`).
-/
import proofs.«143981_j62285615726858_1_alg».proof.Proof.Gen.KernelIdeal.Frame
import proofs.«143981_j62285615726858_1_alg».proof.Proof.Dense
import proofs.«143981_j62285615726858_1_alg».proof.Proof.LibRowsProduct
import proofs.«143981_j62285615726858_1_alg».proof.Proof.LibBiasRow
import Idealize.ShloMosaic.Lib.Pipeline.Value
import Idealize.ShloMosaic.Lib.ValueIdx

set_option maxRecDepth 16384

noncomputable section

open scoped BigOperators

namespace Cert.KernelIdeal.Block

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem origin : (![0, 0] : Fin 2 → Nat) = fun _ => 0 := funext fun a => by fin_cases a <;> rfl

/-- Entry (p, q) of a tile: row p of the activations' block against row q of the weights' block, plus the bias
    block's entry q. The two casts of a block to its own shape change nothing, the product into a zero accumulator is the
    plain sum over the 4096 columns, and the bias row repeated over the 512 rows reads its entry (0, q). -/
theorem tile_entry (x0 : S512x4096.Idx → EReal) (x1 : S1024x4096.Idx → EReal) (x2 : S1x1024.Idx → EReal)
    (p : Fin 512) (q : Fin 1024) :
    k0_pay1 (F := Ideal) x0 x1 x2 (ix2 p q)
      = (∑ k : Fin 4096, x0 (ix2 p k) * x1 (ix2 q k)) + x2 (ix2 (0 : Fin 1) q) := by
  unfold k0_pay1
  simp only [shapeCast_self]
  show FloatOps.addf (F := Ideal) (φ := .f32)
      (matmul (F := Ideal) dot_S512x4096_S1024x4096_S512x1024_1_1_0_0_n_n none x0 x1
        (constant (F := Ideal) S512x1024 .f32 0x00000000#32) (ix2 p q))
      (broadcastTo S512x1024 x2 broadcasts_S1x1024_S512x1024 (ix2 p q)) = _
  rw [Ideal.addf_def,
    Cert.LibRowsProduct.matmul_zero_apply dot_S512x4096_S1024x4096_S512x1024_1_1_0_0_n_n rfl rfl rfl rfl rfl rfl
      none x0 x1 p q,
    Cert.BiasRow.stretch_row_apply broadcasts_S1x1024_S512x1024 x2 p q]

/-- The same at any index of the tile. -/
theorem tile_entry_at (x0 : S512x4096.Idx → EReal) (x1 : S1024x4096.Idx → EReal) (x2 : S1x1024.Idx → EReal)
    (y : S512x1024.Idx) :
    k0_pay1 (F := Ideal) x0 x1 x2 y
      = (∑ k : Fin 4096, x0 (ix2 (⟨(y 0).val, idx2_lt0 y⟩ : Fin 512) k) * x1 (ix2 (⟨(y 1).val, idx2_lt1 y⟩ : Fin 1024) k))
        + x2 (ix2 (0 : Fin 1) (⟨(y 1).val, idx2_lt1 y⟩ : Fin 1024)) := by
  obtain ⟨p, q, rfl⟩ : ∃ (p : Fin 512) (q : Fin 1024), y = ix2 p q := ⟨y 0, y 1, eq_ix2 y⟩
  exact tile_entry x0 x1 x2 p q

/-- Where the blocks sit, decided over the 176 grid points: the activations' block moves with the tile's row block and
    the weights' and the bias's blocks with its column block; the other block coordinates are 0. -/
theorem block_places : ∀ t : Fin cfg0.N,
      win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Grid point t writes the tile at row block t / 11 and column block t % 11. -/
theorem tile_of_point : ∀ t : Fin cfg0.N,
    win0_3.index t (0 : Fin 2) = t.val / 11 ∧ win0_3.index t (1 : Fin 2) = t.val % 11 :=
  (by decide +kernel : ∀ t : Fin grid0.N, _)

/-- Where entry y of point t's tile sits in the result array. -/
abbrev place (t : Fin cfg0.N) (y : S512x1024.Idx) : (⟨2, ![8192, 11264]⟩ : Shape).Idx := ((cfg0.win 3).blk t).view.emb y

/-- An entry of point t's block of ANY [8192, 4096] array is the array's entry at the place the block's entry has in it. -/
theorem read0 (t : Fin cfg0.N) (A : S8192x4096.Idx → EReal) (y : S512x4096.Idx) :
    ((cfg0.win 0).blk t).view.read (Elt Ideal) A y = A (((cfg0.win 0).blk t).view.emb y) := rfl

/-- The same for a block of any [11264, 4096] array. -/
theorem read1 (t : Fin cfg0.N) (B : S11264x4096.Idx → EReal) (y : S1024x4096.Idx) :
    ((cfg0.win 1).blk t).view.read (Elt Ideal) B y = B (((cfg0.win 1).blk t).view.emb y) := rfl

/-- The same for a block of any [1, 11264] row. -/
theorem read2 (t : Fin cfg0.N) (C : S1x11264.Idx → EReal) (y : S1x1024.Idx) :
    ((cfg0.win 2).blk t).view.read (Elt Ideal) C y = C (((cfg0.win 2).blk t).view.emb y) := rfl

/-- Row (y 0) of the activations' block is the array's row under the tile's row, at the same column k. -/
theorem acts_place (t : Fin cfg0.N) (y : S512x1024.Idx) (k : Fin 4096) :
    ((cfg0.win 0).blk t).view.emb (ix2 (⟨(y 0).val, idx2_lt0 y⟩ : Fin 512) k)
      = (ix2 (⟨(place t y 0).val, idx2_lt0 (place t y)⟩ : Fin 8192) k : S8192x4096.Idx) := by
  obtain ⟨e0, e1, e2, e3, e4, e5⟩ := block_places t
  funext a
  apply Fin.ext
  match a with
  | ⟨0, _⟩ =>
    show win0_0.index t (0 : Fin 2) * 512 + 1 * (y 0).val = win0_3.index t (0 : Fin 2) * 512 + 1 * (y 0).val
    omega
  | ⟨1, _⟩ =>
    show win0_0.index t (1 : Fin 2) * 4096 + 1 * k.val = k.val
    omega

/-- Row (y 1) of the weights' block is the widened weights' row under the tile's column, at the same column k. -/
theorem wts_place (t : Fin cfg0.N) (y : S512x1024.Idx) (k : Fin 4096) :
    ((cfg0.win 1).blk t).view.emb (ix2 (⟨(y 1).val, idx2_lt1 y⟩ : Fin 1024) k)
      = (ix2 (⟨(place t y 1).val, idx2_lt1 (place t y)⟩ : Fin 11264) k : S11264x4096.Idx) := by
  obtain ⟨e0, e1, e2, e3, e4, e5⟩ := block_places t
  funext a
  apply Fin.ext
  match a with
  | ⟨0, _⟩ =>
    show win0_1.index t (0 : Fin 2) * 1024 + 1 * (y 1).val = win0_3.index t (1 : Fin 2) * 1024 + 1 * (y 1).val
    omega
  | ⟨1, _⟩ =>
    show win0_1.index t (1 : Fin 2) * 4096 + 1 * k.val = k.val
    omega

/-- Entry (y 1) of the bias block is the widened bias row's entry under the tile's column. -/
theorem bias_place (t : Fin cfg0.N) (y : S512x1024.Idx) :
    ((cfg0.win 2).blk t).view.emb (ix2 (0 : Fin 1) (⟨(y 1).val, idx2_lt1 y⟩ : Fin 1024))
      = (ix2 (0 : Fin 1) (⟨(place t y 1).val, idx2_lt1 (place t y)⟩ : Fin 11264) : S1x11264.Idx) := by
  obtain ⟨e0, e1, e2, e3, e4, e5⟩ := block_places t
  funext a
  apply Fin.ext
  match a with
  | ⟨0, _⟩ =>
    show win0_2.index t (0 : Fin 2) * 1 + 1 * 0 = 0
    omega
  | ⟨1, _⟩ =>
    show win0_2.index t (1 : Fin 2) * 1024 + 1 * (y 1).val = win0_3.index t (1 : Fin 2) * 1024 + 1 * (y 1).val
    omega

/-- For ANY three arrays: entry y of the tile computed from their blocks at point t is the widened product of the arrays at
    the place y has in the result array. Each block entry is read where it sits in its array. -/
theorem tile_of_arrays (t : Fin cfg0.N) (A : S8192x4096.Idx → EReal) (B : S11264x4096.Idx → EReal)
    (C : S1x11264.Idx → EReal) (y : S512x1024.Idx) :
    @Eq EReal (k0_pay1 (F := Ideal) (((cfg0.win 0).blk t).view.read (Elt Ideal) A)
        (((cfg0.win 1).blk t).view.read (Elt Ideal) B) (((cfg0.win 2).blk t).view.read (Elt Ideal) C) y)
      (padded A B C (place t y)) := by
  refine (tile_entry_at (((cfg0.win 0).blk t).view.read (Elt Ideal) A) (((cfg0.win 1).blk t).view.read (Elt Ideal) B)
    (((cfg0.win 2).blk t).view.read (Elt Ideal) C) y).trans ?_
  unfold padded
  refine congrArg₂ (fun a b : EReal => a + b)
    (Finset.sum_congr rfl fun k _ => congrArg₂ (fun a b : EReal => a * b) ?_ ?_) ?_
  · exact (read0 t A _).trans (congrArg A (acts_place t y k))
  · exact (read1 t B _).trans (congrArg B (wts_place t y k))
  · exact (read2 t C _).trans (congrArg C (bias_place t y))

/-- What a write-back moves, at an index: the staged contents at that index (the block is not cut at the array's end). -/
theorem moved_at (t : Fin cfg0.N) (X : S512x1024.Idx → EReal) (j : ((win0 3).xblock (grid0.coords t)).Idx) :
    (win0 3).cut (grid0.coords t) X j = X ((win0 3).xinj (grid0.coords t) j) := rfl

/-- Reading the result array through point t's tile, at an index: the array at the place the index has in it. -/
theorem read_tile (t : Fin cfg0.N) (G : S8192x11264.Idx → EReal) (j : ((win0 3).xblock (grid0.coords t)).Idx) :
    View.read (Elt Ideal) ((cfg0.win 3).blk t).view G j = G (((cfg0.win 3).blk t).view.emb j) := rfl

/-- The staged index and the moved index have the same place in the array. -/
theorem place_moved (t : Fin cfg0.N) (j : ((win0 3).xblock (grid0.coords t)).Idx) :
    ((cfg0.win 3).blk t).view.emb ((win0 3).xinj (grid0.coords t) j) = ((cfg0.win 3).blk t).view.emb j := by
  funext a
  apply Fin.ext
  match a with
  | ⟨0, _⟩ => rfl
  | ⟨1, _⟩ => rfl

/-- For ANY three arrays: what is moved out of the staging buffer holding the tile of their blocks is block t of their
    widened product. -/
theorem block_of_arrays (t : Fin cfg0.N) (A : S8192x4096.Idx → EReal) (B : S11264x4096.Idx → EReal)
    (C : S1x11264.Idx → EReal) :
    (win0 3).cut (grid0.coords t) (k0_pay1 (F := Ideal) (((cfg0.win 0).blk t).view.read (Elt Ideal) A)
        (((cfg0.win 1).blk t).view.read (Elt Ideal) B) (((cfg0.win 2).blk t).view.read (Elt Ideal) C))
      = ((cfg0.win 3).blk t).view.read (Elt Ideal) (padded A B C) := by
  have tile : @Eq (S512x1024.Idx → EReal) (k0_pay1 (F := Ideal) (((cfg0.win 0).blk t).view.read (Elt Ideal) A)
        (((cfg0.win 1).blk t).view.read (Elt Ideal) B) (((cfg0.win 2).blk t).view.read (Elt Ideal) C))
      (fun y => padded A B C (place t y)) := funext (tile_of_arrays t A B C)
  rw [tile]
  generalize padded A B C = G
  funext j
  exact ((moved_at t (fun y => G (place t y)) j).trans (congrArg G (place_moved t j))).trans (read_tile t G j).symm

variable (m : (ℓ : Loc nD τ sig) → Buf (Elt Ideal) ℓ)

/-- The array the region leaves, as one function of the three arrays it finds: their widened product. -/
def whole (c : Dev nD) : S8192x11264.Idx → EReal :=
  padded (V m c (Pipeline.arrRef spec0 0)) (V m c (Pipeline.arrRef spec0 1)) (V m c (Pipeline.arrRef spec0 2))

/-- What grid point t writes back is block t of the widened product of the arrays as the region finds them. -/
theorem written_back (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero origin]
  simp only [View.ld_unit_zero (S := S512x4096) origin, View.ld_unit_zero (S := S1024x4096) origin,
    View.ld_unit_zero (S := S1x1024) origin]
  unfold iblk whole
  exact block_of_arrays t _ _ _

/-- An index of the result array is in point t's tile iff each coordinate is in the tile's range on its axis. -/
theorem in_tile (t : Fin cfg0.N) (i : S8192x11264.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v38).slice (win0_3.rect t)).set ↔ _
  rw [View.set_slice_whole, Rect.mem_set_unit]
  exact Iff.rfl

/-- The tiles cover the array: index (r, q) is in the tile at (r / 512, q / 1024), which is grid point
    (r / 512) · 11 + q / 1024, and every point writes back. -/
theorem tiles_cover (i : S8192x11264.Idx) :
    ∃ t : Fin cfg0.N, (cfg0.win 3).flush t = true ∧ i ∈ ((cfg0.win 3).blk t).view.set := by
  have hi0 : (i 0).val < 8192 := (i 0).isLt
  have hi1 : (i 1).val < 11264 := (i 1).isLt
  obtain ⟨t, ht⟩ : ∃ t : Fin cfg0.N, t.val = (i 0).val / 512 * 11 + (i 1).val / 1024 :=
    ⟨⟨(i 0).val / 512 * 11 + (i 1).val / 1024, by show _ < grid0.N; rw [N_0]; omega⟩, rfl⟩
  obtain ⟨q0, q1⟩ := tile_of_point t
  refine ⟨t, flush0_3 t, ?_⟩
  rw [in_tile]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- After the region its result array holds the widened product of the three arrays the region found. -/
theorem region_result (c : Dev nD) : (dats m 0 c).arrAt 3 cfg0.N = whole m c :=
  (dats m 0 c).arrAt_eq_of_cover 3 (whole m c) (fun t _ => written_back m c t) (fun i => tiles_cover i)

end Cert.KernelIdeal.Block

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.KernelHost.lean ====
/-
  The host operations around the matrix-product region.

  BEFORE the region the program quantizes and de-quantizes the activations and the weights — the very operations of
  the reference, in the same order on the same arguments, so their results are the reference's two quantized operands
  (`acts_quantized`, `weights_quantized`) —, narrows both to the 16-bit format, which on the extended reals changes
  nothing, extends the weights by 256 rows of zeros and the bias by 256 zeros, and lays the bias out as one row. So the
  region finds: the quantized activations (`acts_found`); an [11264, 4096] array whose first 11008 rows are the
  quantized weights (`weights_found`); a [1, 11264] row whose first 11008 entries are the bias (`bias_found`).

  The small functions jax outlines (where, round, clip, pad) name their buffers by references that carry the tensor type
  and move contents along "the buffer's type is that type". At a reference whose carried type is its own such an
  operation IS the plain operation (`tunary_eq`, `tbinary_eq`, `tternary_eq`); rewriting the operations first, while
  they are small, keeps every value a plain term of the arguments.

  AFTER the region the program cuts the [8192, 11264] result down to its first 11008 columns and lays the rows out as
  [4, 2048, ·]: entry (s, t, o) of the final result is entry (s·2048 + t, o) of the region's array (`result_entry`).
-/
import proofs.«143981_j62285615726858_1_alg».proof.Proof.Gen.KernelIdeal.Frame
import proofs.«143981_j62285615726858_1_alg».proof.Proof.Gen.ReferenceIdeal.Read
import proofs.«143981_j62285615726858_1_alg».proof.Proof.KernelBlock
import proofs.«143981_j62285615726858_1_alg».proof.Proof.LibPlainOps
import proofs.«143981_j62285615726858_1_alg».proof.Proof.LibBiasRow
import Idealize.ShloMosaic.Lib.StableHlo.Run
import Idealize.ShloMosaic.Lib.Pipeline.Value

set_option maxRecDepth 16384

noncomputable section

open scoped BigOperators

namespace Cert.KernelIdeal.Host

open Cert.KernelIdeal Cert.KernelIdeal.Gen Cert.Dense Cert.PlainOps
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ)

/-- Reads a buffer's contents when the region is entered off @main's operations before it: the valuation unfolded to the
    fold over the operations, the outlined functions' operations made plain, each operation's result rewritten. -/
local macro "prefix_values" : tactic =>
  `(tactic| (dsimp only [V, V0]
             simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
               tunary_eq, tbinary_eq, tternary_eq]
             after_results_simp))

set_option maxHeartbeats 4000000 in
/-- The activations quantized and de-quantized: the reference's operations, one for one, on the same argument. -/
theorem acts_quantized (c : Dev nD) :
    (V m c main_v16 : S8192x4096.Idx → EReal)
      = Cert.ReferenceIdeal.Read.val_main_v16 (F := Ideal) (m ((c.tc : Thread nD τ).loc main_arg0)) := by
  prefix_values
  rfl

set_option maxHeartbeats 4000000 in
/-- The weights quantized and de-quantized: the reference's operations, one for one, on the same argument. -/
theorem weights_quantized (c : Dev nD) :
    (V m c main_v32 : S11008x4096.Idx → EReal)
      = Cert.ReferenceIdeal.Read.val_main_v32 (F := Ideal) (m ((c.tc : Thread nD τ).loc main_arg1)) := by
  prefix_values
  rfl

set_option maxHeartbeats 4000000 in
/-- The region's first operand is the quantized activations narrowed to 16 bits. -/
theorem acts_narrowed (c : Dev nD) :
    (V m c main_v33 : S8192x4096.Idx → EReal)
      = truncf (F := Ideal) .bf16 (V m c main_v16 : S8192x4096.Idx → EReal) bitsLt_bf16_f32 := by
  prefix_values

set_option maxHeartbeats 4000000 in
/-- The region's second operand is the quantized weights narrowed to 16 bits and extended below by 256 rows. -/
theorem weights_widened (c : Dev nD) :
    (V m c main_v35 : S11264x4096.Idx → EReal)
      = pad S11264x4096 ![0, 0] ![256, 0] ![0, 0]
          (truncf (F := Ideal) .bf16 (V m c main_v32 : S11008x4096.Idx → EReal) bitsLt_bf16_f32)
          (sitofp (F := Ideal) .bf16 (constantI S_ 32 0#32)) pads_S11008x4096_S11264x4096_02560_000 h_S_ := by
  prefix_values

set_option maxHeartbeats 4000000 in
/-- The region's third operand is the bias extended by 256 entries and laid out as one row. -/
theorem bias_widened (c : Dev nD) :
    (V m c main_v37 : S1x11264.Idx → EReal)
      = shapeCast S1x11264 (pad S11264 ![0] ![256] ![0]
          (m ((c.tc : Thread nD τ).loc main_arg2) : S11008.Idx → EReal)
          (sitofp (F := Ideal) .f32 (constantI S_ 32 0#32)) pads_S11008_S11264_02560 h_S_) shapeCasts_S11264_S1x11264 := by
  prefix_values
  rfl

/-- The region finds the activations quantized and de-quantized exactly as the reference does it: the narrowing to 16
    bits is the identity on the extended reals. -/
theorem acts_found (c : Dev nD) :
    (V m c (Pipeline.arrRef spec0 0) : S8192x4096.Idx → EReal)
      = Cert.ReferenceIdeal.Read.val_main_v16 (F := Ideal) (m ((c.tc : Thread nD τ).loc main_arg0)) := by
  show (V m c main_v33 : S8192x4096.Idx → EReal) = _
  rw [acts_narrowed, acts_quantized]
  rfl

/-- Row o < 11008 of the widened weights is row o of the reference's quantized weights: the extension adds rows below. -/
theorem weights_found (c : Dev nD) (o : Fin 11008) (k : Fin 4096) :
    (V m c (Pipeline.arrRef spec0 1) : S11264x4096.Idx → EReal) (ix2 (⟨o.val, by have := o.isLt; omega⟩ : Fin 11264) k)
      = Cert.ReferenceIdeal.Read.val_main_v32 (F := Ideal) (m ((c.tc : Thread nD τ).loc main_arg1)) (ix2 o k) := by
  show (V m c main_v35 : S11264x4096.Idx → EReal) (ix2 (⟨o.val, by have := o.isLt; omega⟩ : Fin 11264) k) = _
  rw [weights_widened, weights_quantized]
  refine (Cert.Dense.pad_rows_inside _ _ pads_S11008x4096_S11264x4096_02560_000 h_S_ o k).trans ?_
  rfl

/-- Entry o < 11008 of the widened bias row is the bias's entry o. -/
theorem bias_found (c : Dev nD) (o : Fin 11008) :
    (V m c (Pipeline.arrRef spec0 2) : S1x11264.Idx → EReal) (ix2 (0 : Fin 1) (⟨o.val, by have := o.isLt; omega⟩ : Fin 11264))
      = (m ((c.tc : Thread nD τ).loc main_arg2) : S11008.Idx → EReal) (ix1 o) := by
  show (V m c main_v37 : S1x11264.Idx → EReal) (ix2 (0 : Fin 1) (⟨o.val, by have := o.isLt; omega⟩ : Fin 11264)) = _
  rw [bias_widened]
  refine (Cert.BiasRow.cast_row_apply shapeCasts_S11264_S1x11264 _ _).trans ?_
  exact Cert.Dense.pad_vec_inside _ _ pads_S11008_S11264_02560 h_S_ o

/-- An [8192, 11264] array cut to its first 11008 columns and laid out as [4, 2048, 11008], read at (s, t, o): the
    array at (s·2048 + t, o). -/
theorem cut_fold_apply {α : Type} (X : (⟨2, ![8192, 11264]⟩ : Shape).Idx → α)
    (hs : (⟨2, ![8192, 11264]⟩ : Shape).Slices ![0, 0] ⟨2, ![8192, 11008]⟩)
    (hc : (⟨2, ![8192, 11008]⟩ : Shape).ShapeCasts ⟨3, ![4, 2048, 11008]⟩)
    (i : (⟨3, ![4, 2048, 11008]⟩ : Shape).Idx) :
    shapeCast ⟨3, ![4, 2048, 11008]⟩ (extractStridedSlice ⟨2, ![8192, 11008]⟩ ![0, 0] X hs) hc i
      = X (ix2 (tok i) (featWide i)) := by
  refine (shapeCast_apply _ hc i (ix2 (tok i) (feat i)) ?_).trans ?_
  · rewrite [Shape.rowMajor_val_two, Shape.rowMajor_val_three]
    rfl
  · exact extractStridedSlice_apply ![0, 0] X hs (ix2 (tok i) (feat i)) (ix2 (tok i) (featWide i)) fun a =>
      match a with
      | ⟨0, _⟩ => by show (tok i).val = 0 + (tok i).val; omega
      | ⟨1, _⟩ => by show (featWide i).val = 0 + (feat i).val; show (i 2).val = 0 + (i 2).val; omega

/-- @main's result after the tail: the region's array, cut and laid out. -/
theorem tail_eq (c : Dev nD) :
    Pipeline.afterTail₀ cfgs (dats m) 0 (V0 m) [hostOps1] c main_v40
      = shapeCast S4x2048x11008 (extractStridedSlice S8192x11008 ![0, 0] (Block.whole m c)
          slices_S8192x11264_S8192x11008_0_0) shapeCasts_S8192x11008_S4x2048x11008 := by
  unfold Pipeline.afterTail₀
  show StableHlo.after hostOps1 _ (Proc.devRef .tc main_v40) = _
  after_results
  have h := (Pipeline.withArrays_arr spec0 launch0.win.arr_inj c (V0 m c)
    (fun w => (dats m 0 c).arrAt w cfg0.N) 3).trans (Block.region_result m c)
  exact congrArg (fun a : S8192x11264.Idx → EReal =>
    shapeCast S4x2048x11008 (extractStridedSlice S8192x11008 ![0, 0] a slices_S8192x11264_S8192x11008_0_0)
      shapeCasts_S8192x11008_S4x2048x11008) h

/-- Entry (s, t, o) of @main's result is entry (s·2048 + t, o) of the widened product. -/
theorem result_entry (c : Dev nD) (i : S4x2048x11008.Idx) :
    (Pipeline.afterTail₀ cfgs (dats m) 0 (V0 m) [hostOps1] c main_v40 : S4x2048x11008.Idx → EReal) i
      = Block.whole m c (ix2 (tok i) (featWide i)) := by
  rw [tail_eq]
  exact cut_fold_apply (Block.whole m c) slices_S8192x11264_S8192x11008_0_0 shapeCasts_S8192x11008_S4x2048x11008 i

/-- So @main's result is the dense layer of the reference's two quantized operands and the bias. -/
theorem result_dense (c : Dev nD) :
    (Pipeline.afterTail₀ cfgs (dats m) 0 (V0 m) [hostOps1] c main_v40 : S4x2048x11008.Idx → EReal)
      = dense (Cert.ReferenceIdeal.Read.val_main_v16 (F := Ideal) (m ((c.tc : Thread nD τ).loc main_arg0)))
          (Cert.ReferenceIdeal.Read.val_main_v32 (F := Ideal) (m ((c.tc : Thread nD τ).loc main_arg1)))
          (m ((c.tc : Thread nD τ).loc main_arg2)) := by
  funext i
  rw [result_entry]
  unfold Block.whole
  rw [acts_found]
  exact dense_of_padded _ _ _ _ _ (weights_found m c) (bias_found m c) i

end Cert.KernelIdeal.Host

end
-- ==== Proof.lean ====
/-
  A dense layer with quantized operands: the kernel computes what the reference computes.

  Both programs quantize and de-quantize the activations (per token, per group of 128 columns) and the weights (per
  128 × 128 block) by the same operations; call the results  A  ([8192, 4096]) and  B  ([11008, 4096]). The reference
  then forms  Σ_k A(r, k) · B(o, k) + b(o)  for every token row r and output feature o. The kernel narrows  A  and  B  to
  a 16-bit format — nothing, on the extended reals —, extends  B  and the bias  b  by 256 rows of zeros so that 11 column
  blocks of 1024 cover the 11008 features, lets a 16 × 11 grid of 512 × 1024 tiles compute the product over all 4096
  columns in one step per tile with the bias row added, and cuts the 256 extra columns off again. Entry (r, o) with
  o < 11008 never reads an added row, so it is the reference's entry: the same sum of the same 4096 products plus the same
  bias entry, with no re-association and no distributivity, hence no finiteness needed.

  The pieces: `Cert.Dense` states the layer and the widened product; `Cert.RefDense.ref_dense` reads the reference's
  last stage as the layer; `Cert.KernelIdeal.Block.region_result` is what the region leaves;
  `Cert.KernelIdeal.Host.result_dense` reads the kernel's result through the operations before and after the region.
  The frames of both kernel programs are the generated ones; the reference's frame is its generated run.
-/
import proofs.«143981_j62285615726858_1_alg».proof.Defs
import proofs.«143981_j62285615726858_1_alg».proof.Proof.Gen.Kernel
import proofs.«143981_j62285615726858_1_alg».proof.Proof.Gen.Kernel.Skeleton
import proofs.«143981_j62285615726858_1_alg».proof.Proof.Gen.Kernel.Launch
import proofs.«143981_j62285615726858_1_alg».proof.Proof.Gen.Kernel.Points
import proofs.«143981_j62285615726858_1_alg».proof.Proof.Gen.Kernel.Frame
import proofs.«143981_j62285615726858_1_alg».proof.Proof.Gen.KernelIdeal
import proofs.«143981_j62285615726858_1_alg».proof.Proof.Gen.KernelIdeal.Skeleton
import proofs.«143981_j62285615726858_1_alg».proof.Proof.Gen.KernelIdeal.Launch
import proofs.«143981_j62285615726858_1_alg».proof.Proof.Gen.KernelIdeal.Points
import proofs.«143981_j62285615726858_1_alg».proof.Proof.Gen.KernelIdeal.Frame
import proofs.«143981_j62285615726858_1_alg».proof.Proof.Gen.ReferenceIdeal
import proofs.«143981_j62285615726858_1_alg».proof.Proof.Gen.Pre_finite_inputs
import proofs.«143981_j62285615726858_1_alg».proof.Proof.Gen.ReferenceIdeal.Run
import proofs.«143981_j62285615726858_1_alg».proof.Proof.Gen.ReferenceIdeal.Read
import proofs.«143981_j62285615726858_1_alg».proof.Proof.RefSide
import proofs.«143981_j62285615726858_1_alg».proof.Proof.KernelHost
import Idealize.ShloMosaic.Adequacy
import Idealize.ShloMosaic.Init

noncomputable section

namespace Cert.Proof

open Idealize.ShloMosaic Idealize.ShloMosaic.TcCoe Idealize.SL.Sem Cert.Dense

/-- The idealized kernel runs, and its result array ends holding the dense layer of the two quantized operands and the
    bias; its arguments end as they were. The run is the generated frame run; the result is read off its post through
    the operations after the region, the arguments by the generated facts that nothing writes them. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v40)
          = dense (Cert.ReferenceIdeal.Read.val_main_v16 (F := Ideal)
                (m ((c.tc : Thread Cert.KernelIdeal.nD Cert.KernelIdeal.τ).loc Cert.KernelIdeal.main_arg0)))
              (Cert.ReferenceIdeal.Read.val_main_v32 (F := Ideal)
                (m ((c.tc : Thread Cert.KernelIdeal.nD Cert.KernelIdeal.τ).loc Cert.KernelIdeal.main_arg1)))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)) :=
  (θ_run Cert.KernelIdeal.defs _ _).mono (fun _ h c =>
      ⟨((h c).2 Cert.KernelIdeal.main_v40 (Pipeline.mem_restRefs_of Cert.KernelIdeal.main_v40 (by decide) (by decide))).trans
          (Cert.KernelIdeal.Host.result_dense m c),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c)⟩)
    (Cert.KernelIdeal.Gen.run_main m ρ)

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the three arguments, both programs end with the dense layer of the quantized
    activations, the quantized weights and the bias: the kernel by `kernel_run`, the reference by its run read as the
    layer, the two stated at one term once the arguments are identified. -/
theorem algebraic : Cert.algebraic_KernelIdeal_ReferenceIdeal := by
  intro m ρ m' ρ' _ hagree
  refine ⟨fun c => dense (Cert.ReferenceIdeal.Read.val_main_v16 (F := Ideal)
        (m ((c.tc : Thread Cert.KernelIdeal.nD Cert.KernelIdeal.τ).loc Cert.KernelIdeal.main_arg0)))
      (Cert.ReferenceIdeal.Read.val_main_v32 (F := Ideal)
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefDense.ref_dense, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
